-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Dense.lean ====
/-
  The mathematics of a dense layer with binarized weights, `y = x · sign(w) + b`, over the extended reals.

  `bin w` is the binarized weight: the literal `+1` where `w ≥ 0` and the literal `−1` elsewhere. `dense x w b` is the
  layer's result as ONE function of the three argument arrays: entry `(r, c)` is the sum over the 4096 contraction
  entries `k` of `x (r, k) · bin (w (k, c))`, plus `b c`.

  The contraction axis of 4096 is cut into four blocks of 1024 (`blk4`), the row axis of 8192 into eight (`blk8`). The one
  law the certificate needs is that a sum over 4096 entries is the sum over the four blocks of the sums inside each
  block (`sum_blk4`): addition on the extended reals is commutative and associative, so no finiteness is needed.
-/
import Idealize.ShloMosaic.PureOps.Ideal
import Idealize.ShloMosaic.PureOps.Ideal.Laws
import Idealize.ShloMosaic.Lib.ValueIdx

noncomputable section

namespace Cert.Dense

open Idealize.ShloMosaic Idealize.ShloMosaic.ValueIdx

/-- The binarized weight: `+1` where `w ≥ 0`, `−1` elsewhere (the two literals kept as their words). -/
def bin (w : EReal) : EReal :=
  Scalar.select (Ideal.cmp .oge w (Ideal.ofBits .f32 0x00000000#32))
    (Ideal.ofBits .f32 0x3F800000#32) (Ideal.ofBits .f32 0xBF800000#32)

abbrev SX : Shape := ⟨2, ![8192, 4096]⟩
abbrev SW : Shape := ⟨2, ![4096, 4096]⟩
abbrev SB : Shape := ⟨1, ![4096]⟩
abbrev SB2 : Shape := ⟨2, ![1, 4096]⟩
abbrev ST : Shape := ⟨2, ![1024, 1024]⟩
abbrev SR : Shape := ⟨2, ![1, 1024]⟩

/-- Entry `p` of block `q` of an axis of 8192 cut into eight blocks of 1024. -/
def blk8 (q : Fin 8) (p : Fin 1024) : Fin 8192 := ⟨q.val * 1024 + p.val, by have := q.isLt; have := p.isLt; omega⟩
/-- Entry `p` of block `q` of an axis of 4096 cut into four blocks of 1024. -/
def blk4 (q : Fin 4) (p : Fin 1024) : Fin 4096 := ⟨q.val * 1024 + p.val, by have := q.isLt; have := p.isLt; omega⟩

/-- An entry of the axis of 4096 is a block and a position inside it. -/
def blk4Equiv : Fin 4 × Fin 1024 ≃ Fin 4096 where
  toFun p := blk4 p.1 p.2
  invFun k := (⟨k.val / 1024, by have := k.isLt; omega⟩, ⟨k.val % 1024, by omega⟩)
  left_inv p := by
    obtain ⟨q, r⟩ := p
    have := q.isLt; have := r.isLt
    refine Prod.ext (Fin.ext ?_) (Fin.ext ?_) <;> simp only [blk4] <;> omega
  right_inv k := Fin.ext (by simp only [blk4]; omega)

/-- A sum over the 4096 contraction entries is the sum, over the four blocks, of the sums inside each block. -/
theorem sum_blk4 {M : Type*} [AddCommMonoid M] (f : Fin 4096 → M) :
    ∑ k, f k = ∑ q : Fin 4, ∑ p : Fin 1024, f (blk4 q p) := by
  rw [← Equiv.sum_comp blk4Equiv f, Fintype.sum_prod_type]
  rfl

/-- The layer's result: entry `(r, c)` is `∑ₖ x (r, k) · bin (w (k, c))` plus `b c`. -/
def dense (x : SX.Idx → EReal) (w : SW.Idx → EReal) (b : SB.Idx → EReal) : SX.Idx → EReal :=
  fun i => (∑ k : Fin 4096, x (ix2 (i 0) k) * bin (w (ix2 k (i 1)))) + b (ix1 (i 1))

/-- One contraction block's share of an entry of an output tile: the products over the block's 1024 entries, of a
    tile `xb` of `x` and a tile `wb` of `w`. -/
def tileDot (xb wb : ST.Idx → EReal) (y : ST.Idx) : EReal :=
  ∑ p : Fin 1024, xb (ix2 (y 0) p) * bin (wb (ix2 p (y 1)))

end Cert.Dense

end
-- ==== Proof.RefDense.lean ====
/-
  The reference computes `dense`. Its last stage adds, entry by entry, the product `x · sel` — a sum over the 4096
  contraction entries of `x (r, k)` times the selected literal at `(k, c)`, which is `bin (w (k, c))`: the comparison of
  `w (k, c)` with the zero literal chooses between the literals `+1` and `−1` — and the bias row broadcast down the rows.
-/
import proofs.«149915_j84421877170698_1_alg».proof.Proof.Gen.ReferenceIdeal.Read
import proofs.«149915_j84421877170698_1_alg».proof.Proof.Dense

noncomputable section

namespace Cert.ReferenceIdeal.RefValue

open Cert.ReferenceIdeal Cert.ReferenceIdeal.Read Cert.Dense
open Idealize.ShloMosaic Idealize.ShloMosaic.ValueIdx

/-- The selected weight at an entry is the binarized weight of that entry. -/
theorem selected_eq_bin (w : (⟨S4096x4096, .f32⟩ : BufTy).Contents (Elt Ideal)) (j : S4096x4096.Idx) :
    val_main_v3 (F := Ideal) w j = bin (w j) := by
  rw [val_main_v3_apply, val_main_v2_apply, val_main_v1_apply, val_main_v0_apply, val_main_cst_apply,
    val_main_call0_v0_apply, val_main_cst_0_apply, val_main_call0_v1_apply, val_main_cst_1_apply]
  rfl

/-- The reference's result is `dense` of its three arguments. -/
theorem result_eq_dense (x : (⟨S8192x4096, .f32⟩ : BufTy).Contents (Elt Ideal))
    (w : (⟨S4096x4096, .f32⟩ : BufTy).Contents (Elt Ideal)) (b : (⟨S4096, .f32⟩ : BufTy).Contents (Elt Ideal)) :
    val_main_v7 (F := Ideal) x w b = dense x w b := by
  funext i
  have el : ∀ k, lidx_main_v4 i k = ix2 (i 0) k := fun k => funext fun a => Fin.ext (by
    match a with | ⟨0, _⟩ => rfl | ⟨1, _⟩ => rfl)
  have er : ∀ k, ridx_main_v4 i k = ix2 k (i 1) := fun k => funext fun a => Fin.ext (by
    match a with | ⟨0, _⟩ => rfl | ⟨1, _⟩ => rfl)
  have eb : idx_main_v5 (idx_main_v6 i) = ix1 (i 1) := funext fun a => Fin.ext (by
    match a with | ⟨0, _⟩ => rfl)
  rw [val_main_v7_apply, val_main_v4_apply, val_main_v6_apply, val_main_v5_apply, eb]
  simp only [el, er, selected_eq_bin]
  rfl

end Cert.ReferenceIdeal.RefValue

end
-- ==== Proof.Pieces.lean ====
/-
  What each control case of the body leaves behind, as a term over the body's pure payloads, for any float values.

  The body has three cases over the contraction coordinate `k` of the grid point. At `k = 0` it resets the scratch to
  the zero tile and then accumulates: the scratch ends at the accumulate step applied to the zero tile. At `k = 1, 2`
  it accumulates onto what the point before left. At `k = 3` it accumulates likewise and then stores, into the output
  tile, the final step applied to the scratch it has just written and the bias row.
  Here `x0` is the `x` tile, `x1` the weight tile, `x2` the bias row and `xs0` what the point before left in the scratch.
-/
import proofs.«149915_j84421877170698_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- At `k = 0`: the scratch ends at the accumulate step over the zero tile the reset stored. -/
theorem scratch_first (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .f32) (x2 : Vec F S1x1024 .f32) :
    sout0_A_0 c i a3 h3 a4 h4 a5 h5 a6 h6 a7 h7 hc0 hc1 x0 x1 x2 = k0_pay2 x1 x0 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- At `k = 1, 2`: the scratch ends at the accumulate step over what the point before left. -/
theorem scratch_middle (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .f32) (x2 : Vec F S1x1024 .f32) (xs0 : Vec F S1024x1024 .f32) :
    sout0_B_0 c i a3 h3 a4 h4 a5 h5 a6 h6 a7 h7 hc0 hc1 x0 x1 x2 xs0 = k0_pay2 x1 x0 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz]

/-- At `k = 3`: the scratch ends, as at `k = 1, 2`, at the accumulate step over what the point before left, -/
theorem scratch_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (xs0 : Vec F S1024x1024 .f32) :
    sout0_C_0 c i a3 h3 a4 h4 a5 h5 a6 h6 a7 h7 hc0 hc1 x0 x1 x2 xs0 = k0_pay2 x1 x0 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- and the output tile at the final step over that scratch and the bias row. -/
theorem output_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (xs0 : Vec F S1024x1024 .f32) :
    out0_C_3 c i a3 h3 a4 h4 a5 h5 a6 h6 a7 h7 hc0 hc1 x0 x1 x2 xs0 = k0_pay3 (k0_pay2 x1 x0 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.ld_unit_zero (S := S1024x1024) hz, View.ld_unit_zero (S := S1x1024) hz, View.readCov_unit_zero (S := S1024x1024) _ hz]

end Cert.KernelIdeal.Pieces

end
-- ==== Proof.Payload.lean ====
/-
  What the body's three stores hold, entry by entry, over the extended reals.

  The reset stores the zero tile. The accumulate step stores, at entry `(p, q)` of the 1024 × 1024 tile, the scratch's
  entry plus the tile product `∑ₖ xb (p, k) · bin (wb (k, q))` over the block's 1024 contraction entries: the matrix
  product into a zero accumulator is that sum, the selected weight at `(k, q)` is `bin` of the weight tile's entry, and
  narrowing either operand to bf16 changes nothing at the ideal values. The final step stores the scratch's entry plus
  the bias row's entry `q`, the row being broadcast down the tile's 1024 rows.
-/
import proofs.«149915_j84421877170698_1_alg».proof.Proof.Gen.KernelIdeal.Skeleton
import proofs.«149915_j84421877170698_1_alg».proof.Proof.Dense
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.Dense
open Idealize.ShloMosaic Idealize.ShloMosaic.ValueIdx

/-! ## The tile product: operand indices of the contraction -/

theorem lhs_tile_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_tile_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_tile_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_tile_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two 1024 × 1024 tiles into the zero accumulator, at entry `i`: the sum over the contraction entry
    `k` of the left tile at `(i₀, k)` times the right tile at `(k, i₁)`. -/
theorem tile_matmul_apply (l r : FVec Ideal S1024x1024 .bf16) (i : S1024x1024.Idx) :
    matmul dot_S1024x1024_S1024x1024_S1024x1024_1_0_0_1_n_n none l r (constant S1024x1024 .f32 0x00000000#32) i
      = ∑ k : Fin 1024, l (ix2 (i 0) k) * r (ix2 k (i 1)) := by
  show FloatOps.matmul dot_S1024x1024_S1024x1024_S1024x1024_1_0_0_1_n_n none l r (constant S1024x1024 .f32 0x00000000#32) i = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx i ((ValueIdx.contrEquiv1 dot_S1024x1024_S1024x1024_S1024x1024_1_0_0_1_n_n 1024 rfl rfl).symm k) = ix2 (i 0) k := funext fun a => Fin.ext (by
    match a with
    | ⟨0, _⟩ => exact lhs_tile_0 _ _
    | ⟨1, _⟩ => exact (lhs_tile_1 _ _).trans hk)
  have er : dot_S1024x1024_S1024x1024_S1024x1024_1_0_0_1_n_n.rhsIdx i ((ValueIdx.contrEquiv1 dot_S1024x1024_S1024x1024_S1024x1024_1_0_0_1_n_n 1024 rfl rfl).symm k) = ix2 k (i 1) := funext fun a => Fin.ext (by
    match a with
    | ⟨0, _⟩ => exact (rhs_tile_0 _ _).trans hk
    | ⟨1, _⟩ => exact rhs_tile_1 _ _)
  rw [el, er]
  rfl

/-! ## The three stores -/

/-- The reset stores zero at every entry. -/
theorem reset_apply (i : S1024x1024.Idx) : k0_pay1 (F := Ideal) i = 0 := by
  unfold k0_pay1
  refine (congrFun (shapeCast_self _ _) i).trans ?_
  exact Ideal.ofBits_zero_f32

/-- The accumulate step: the scratch's entry plus the tile product of the `x` tile and the binarized weight tile. -/
theorem accumulate_apply (wb xb acc : Vec Ideal S1024x1024 .f32) (i : S1024x1024.Idx) :
    k0_pay2 (F := Ideal) wb xb acc i = acc i + tileDot xb wb i := by
  unfold k0_pay2
  refine (congrFun (shapeCast_self _ _) i).trans ?_
  refine (ValueIdx.addf_apply _ _ i).trans ?_
  refine congrArg (acc i + ·) ?_
  refine (tile_matmul_apply _ _ i).trans ?_
  rfl

/-- The final step: the scratch's entry plus the bias row's entry in the same column. -/
theorem finalize_apply (acc : Vec Ideal S1024x1024 .f32) (brow : Vec Ideal S1x1024 .f32) (i : S1024x1024.Idx) :
    k0_pay3 (F := Ideal) acc brow i = acc i + brow (ix2 (0 : Fin 1) (i 1)) := by
  unfold k0_pay3
  refine (ValueIdx.addf_apply _ _ i).trans ?_
  refine congrArg (acc i + ·) ?_
  refine (broadcastTo_apply _ broadcasts_S1x1024_S1024x1024 i (ix2 (0 : Fin 1) (i 1)) (fun a => by
    match a with
    | ⟨0, _⟩ => show (0 : Nat) = if (1 : Nat) = 1 then 0 else (i 0).val; rw [if_pos rfl]
    | ⟨1, _⟩ => show (i 1).val = if (1024 : Nat) = 1 then 0 else (i 1).val; rw [if_neg (by decide)])).trans ?_
  exact congrFun (shapeCast_self brow _) _

end Cert.KernelIdeal.Payload

end
-- ==== Proof.Tiles.lean ====
/-
  The kernel's grid walks the 8 × 4 output tiles, and inside each tile the four contraction blocks: point `t` works on
  row block `t / 16`, column block `t / 4 % 4` and contraction block `t % 4`.

  What the point's three windows hold is read off the arrays: the `x` tile is rows `t / 16` by contraction block
  `t % 4`, the weight tile contraction block `t % 4` by columns `t / 4 % 4`, the bias row the columns `t / 4 % 4` of the
  bias (the bias is reshaped to one row before the call, which moves no entry).

  THE INVARIANT. After point `t` the scratch holds, at entry `y` of the tile, the sum over the contraction blocks
  `0 … t % 4` of that block's share `∑ₖ x (row, k) · bin (w (k, col))`: the first point of a tile stores `0 +` its share,
  every later one adds its own. By induction on the point. At a tile's last point (`t % 4 = 3`) all four shares are
  in, and the output tile is that sum plus the bias entry of the column.
-/
import proofs.«149915_j84421877170698_1_alg».proof.Proof.Gen.KernelIdeal.Value
import proofs.«149915_j84421877170698_1_alg».proof.Proof.Pieces
import proofs.«149915_j84421877170698_1_alg».proof.Proof.Payload
import proofs.«149915_j84421877170698_1_alg».proof.Proof.Dense
import Idealize.ShloMosaic.Lib.StableHlo.Run

noncomputable section

namespace Cert.KernelIdeal.Tiles

open Cert.KernelIdeal Cert.KernelIdeal.Gen Cert.Dense
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Positions inside the arrays -/

/-- Position `p` of block `b` (taken mod 8) of an axis of 8192. -/
def at8 (b : ℕ) (p : Fin 1024) : Fin 8192 :=
  ⟨b % 8 * 1024 + p.val, by have := p.isLt; have := Nat.mod_lt b (show 0 < 8 by decide); omega⟩
/-- Position `p` of block `b` (taken mod 4) of an axis of 4096. -/
def at4 (b : ℕ) (p : Fin 1024) : Fin 4096 :=
  ⟨b % 4 * 1024 + p.val, by have := p.isLt; have := Nat.mod_lt b (show 0 < 4 by decide); omega⟩

theorem at4_eq_blk4 (q : Fin 4) (p : Fin 1024) : at4 q.val p = blk4 q p :=
  Fin.ext (by have := q.isLt; simp only [at4, blk4]; rw [Nat.mod_eq_of_lt q.isLt])

/-! ## The arrays as the call finds them, and the tiles a point is handed -/

abbrev xarr (c : Dev nD) : S8192x4096.Idx → EReal := V m c main_arg0
abbrev warr (c : Dev nD) : S4096x4096.Idx → EReal := V m c main_arg1
abbrev brow (c : Dev nD) : S1x4096.Idx → EReal := V m c main_v0
abbrev xtile (c : Dev nD) (t : Fin cfg0.N) : Vec Ideal S1024x1024 .f32 := iblk m c 0 t
abbrev wtile (c : Dev nD) (t : Fin cfg0.N) : Vec Ideal S1024x1024 .f32 := iblk m c 1 t
abbrev btile (c : Dev nD) (t : Fin cfg0.N) : Vec Ideal S1x1024 .f32 := iblk m c 2 t

/-- The block index of each window at a point, decided over the 128 points. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

theorem lt_N (t : Fin cfg0.N) : t.val < 128 := lt_of_lt_of_eq t.isLt N_0

/-- The `x` tile of point `t`: rows of block `t / 16`, contraction entries of block `t % 4`. -/
theorem xtile_apply (c : Dev nD) (t : Fin cfg0.N) (p k : Fin 1024) :
    xtile m c t (ix2 p k) = xarr m c (ix2 (at8 (t.val / 16) p) (at4 (t.val % 4) k)) := by
  obtain ⟨e0, e1, -⟩ := idx_facts t
  have hN := lt_N t
  show ((cfg0.win 0).blk t).view.read (Elt Ideal) (V m c main_arg0) (ix2 p k) = _
  rw [View.read_apply]
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 1024 + 1 * p.val = t.val / 16 % 8 * 1024 + p.val; rw [e0]; omega
  | ⟨1, _⟩ => show win0_0.index t (1 : Fin 2) * 1024 + 1 * k.val = t.val % 4 % 4 * 1024 + k.val; rw [e1]; omega

/-- The weight tile of point `t`: contraction entries of block `t % 4`, columns of block `t / 4 % 4`. -/
theorem wtile_apply (c : Dev nD) (t : Fin cfg0.N) (k q : Fin 1024) :
    wtile m c t (ix2 k q) = warr m c (ix2 (at4 (t.val % 4) k) (at4 (t.val / 4 % 4) q)) := by
  obtain ⟨-, -, e0, e1, -⟩ := idx_facts t
  have hN := lt_N t
  show ((cfg0.win 1).blk t).view.read (Elt Ideal) (V m c main_arg1) (ix2 k q) = _
  rw [View.read_apply]
  show V m c main_arg1 (((cfg0.win 1).blk t).view.emb (ix2 k q)) = V m c main_arg1 _
  refine congrArg (V m c main_arg1) (funext fun a => Fin.ext ?_)
  match a with
  | ⟨0, _⟩ => show win0_1.index t (0 : Fin 2) * 1024 + 1 * k.val = t.val % 4 % 4 * 1024 + k.val; rw [e0]; omega
  | ⟨1, _⟩ => show win0_1.index t (1 : Fin 2) * 1024 + 1 * q.val = t.val / 4 % 4 % 4 * 1024 + q.val; rw [e1]; omega

/-- The bias row of point `t`: the columns of block `t / 4 % 4` of the one-row bias. -/
theorem btile_apply (c : Dev nD) (t : Fin cfg0.N) (q : Fin 1024) :
    btile m c t (ix2 (0 : Fin 1) q) = brow m c (ix2 (0 : Fin 1) (at4 (t.val / 4 % 4) q)) := by
  obtain ⟨-, -, -, -, e0, e1, -⟩ := idx_facts t
  have hN := lt_N t
  show ((cfg0.win 2).blk t).view.read (Elt Ideal) (V m c main_v0) (ix2 (0 : Fin 1) q) = _
  rw [View.read_apply]
  show V m c main_v0 (((cfg0.win 2).blk t).view.emb (ix2 (0 : Fin 1) q)) = V m c main_v0 _
  refine congrArg (V m c main_v0) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = t.val / 4 % 4 % 4 * 1024 + q.val; rw [e1]; omega

/-- The one-row bias the call is handed is the bias reshaped: entry `(0, j)` is the bias's entry `j`. -/
theorem brow_apply (c : Dev nD) (j : Fin 4096) :
    brow m c (ix2 (0 : Fin 1) j) = m ((c : Thread nD τ).loc main_arg2) (ix1 j) := by
  have e : (V m c main_v0 : S1x4096.Idx → EReal)
      = shapeCast S1x4096 (m ((c : Thread nD τ).loc main_arg2)) shapeCasts_S4096_S1x4096 := by
    dsimp only [Gen.V, Gen.hostOps0]; after_results; rfl
  show (V m c main_v0 : S1x4096.Idx → EReal) (ix2 (0 : Fin 1) j) = _
  rw [e]
  refine shapeCast_apply _ _ _ (ix1 j) ?_
  rw [Shape.rowMajor_val_one, Shape.rowMajor_val_two]
  show j.val = 0 * 4096 + j.val
  omega

/-! ## The scratch after each point -/

/-- Contraction block `kb`'s share of entry `y` of the output tile with row block `rb` and column block `cb`. -/
def share (c : Dev nD) (rb cb : ℕ) (y : S1024x1024.Idx) (kb : ℕ) : EReal :=
  ∑ k : Fin 1024, xarr m c (ix2 (at8 rb (y 0)) (at4 kb k)) * bin (warr m c (ix2 (at4 kb k) (at4 cb (y 1))))

/-- The tile product a point computes is its contraction block's share. -/
theorem tileDot_eq_share (c : Dev nD) (t : Fin cfg0.N) (y : S1024x1024.Idx) :
    tileDot (xtile m c t) (wtile m c t) y = share m c (t.val / 16) (t.val / 4 % 4) y (t.val % 4) := by
  unfold tileDot share
  refine Finset.sum_congr rfl fun k _ => ?_
  exact congrArg₂ (· * ·) (xtile_apply m c t (y 0) k) (congrArg bin (wtile_apply m c t k (y 1)))

/-- At a tile's first point the scratch ends at the accumulate step over the zero tile. -/
theorem scratch_at_first (c : Dev nD) (t : Fin cfg0.N) (h0 : t.val % 4 = 0) (h1 : ¬t.val % 4 = 3) :
    (outsAt0 m c t.val t.isLt).2 = k0_pay2 (wtile m c t) (xtile m c t) (k0_pay1 (F := Ideal)) := by
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At every later point of a tile it ends at the accumulate step over what the point before left. -/
theorem scratch_at_next (c : Dev nD) (t : Fin cfg0.N) (h0 : ¬t.val % 4 = 0) :
    (outsAt0 m c t.val t.isLt).2
      = k0_pay2 (wtile m c t) (xtile m c t) (outsAt0 m c (t.val - 1) (Nat.lt_of_le_of_lt (Nat.sub_le _ _) t.isLt)).2 := by
  by_cases h1 : t.val % 4 = 3
  · rw [outsAt0_C m c t h0 h1]
    dsimp only
    exact Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At a tile's last point the output tile is the final step over the scratch the point leaves and the bias row. -/
theorem output_at_last (c : Dev nD) (t : Fin cfg0.N) (h0 : ¬t.val % 4 = 0) (h1 : t.val % 4 = 3) :
    (outsAt0 m c t.val t.isLt).1 = k0_pay3 (outsAt0 m c t.val t.isLt).2 (btile m c t) := by
  rw [scratch_at_next m c t h0, outsAt0_C m c t h0 h1]
  dsimp only
  exact Pieces.output_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- THE INVARIANT: after point `n` the scratch holds the shares of the contraction blocks `0 … n % 4`. -/
theorem scratch_eq (c : Dev nD) : ∀ (n : ℕ) (h : n < cfg0.N) (y : S1024x1024.Idx),
    (outsAt0 m c n h).2 y = ∑ kb ∈ Finset.range (n % 4 + 1), share m c (n / 16) (n / 4 % 4) y kb := by
  intro n
  induction n with
  | zero =>
    intro h y
    have e := scratch_at_first m c ⟨0, h⟩ rfl (show ¬(0 : ℕ) % 4 = 3 by decide)
    have s := tileDot_eq_share m c ⟨0, h⟩ y
    dsimp only at e s
    rw [e, Payload.accumulate_apply, Payload.reset_apply, zero_add, s]
    simp only [Nat.zero_mod, Nat.zero_div, zero_add, Finset.sum_range_one]
  | succ n ih =>
    intro h y
    have hN : n + 1 < 128 := lt_of_lt_of_eq h N_0
    have s := tileDot_eq_share m c ⟨n + 1, h⟩ y
    dsimp only at s
    by_cases h0 : (n + 1) % 4 = 0
    · have e := scratch_at_first m c ⟨n + 1, h⟩ h0 (by dsimp only; omega)
      dsimp only at e
      rw [e, Payload.accumulate_apply, Payload.reset_apply, zero_add, s, h0, Nat.zero_add, Finset.sum_range_one]
    · have e := scratch_at_next m c ⟨n + 1, h⟩ h0
      dsimp only at e
      rw [e, Payload.accumulate_apply, s]
      show (outsAt0 m c n _).2 y + _ = _
      rw [ih _ y, show (n + 1) / 16 = n / 16 by omega, show (n + 1) / 4 % 4 = n / 4 % 4 by omega,
        show (n + 1) % 4 = n % 4 + 1 by omega, Finset.sum_range_succ _ (n % 4 + 1)]

/-- At a tile's last point the output tile holds, at entry `y`, all four shares and the column's bias entry. -/
theorem output_apply (c : Dev nD) (t : Fin cfg0.N) (h1 : t.val % 4 = 3) (y : S1024x1024.Idx) :
    (outsAt0 m c t.val t.isLt).1 y
      = (∑ kb ∈ Finset.range 4, share m c (t.val / 16) (t.val / 4 % 4) y kb)
        + m ((c : Thread nD τ).loc main_arg2) (ix1 (at4 (t.val / 4 % 4) (y 1))) := by
  rw [output_at_last m c t (by omega) h1, Payload.finalize_apply, scratch_eq m c t.val t.isLt y, h1]
  exact congrArg ((∑ kb ∈ Finset.range 4, share m c (t.val / 16) (t.val / 4 % 4) y kb) + ·)
    ((btile_apply m c t (y 1)).trans (brow_apply m c _))

end Cert.KernelIdeal.Tiles

end
-- ==== Proof.Whole.lean ====
/-
  The kernel's result array is `dense` of its three arguments.

  Restricted to the output tile with row block `rb` and column block `cb`, `dense` is the four contraction blocks'
  shares plus the column's bias entry: the sum over the 4096 contraction entries splits into the four blocks
  (`sum_blk4`). That is what the tile's last grid point writes back (`flushed_eq`). The 32 tiles cover the 8192 × 4096
  array — entry `(r, c)` lies in the tile written at point `(r / 1024) · 16 + (c / 1024) · 4 + 3` — so after the run the
  whole array holds `dense` (`final`), and the run's statement follows (`run`).
-/
import proofs.«149915_j84421877170698_1_alg».proof.Proof.Tiles

noncomputable section

namespace Cert.KernelIdeal.Whole

open Cert.KernelIdeal Cert.KernelIdeal.Gen Cert.KernelIdeal.Tiles Cert.Dense
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three arguments as launched. -/
abbrev xin (c : Dev nD) : S8192x4096.Idx → EReal := m ((c : Thread nD τ).loc main_arg0)
abbrev win (c : Dev nD) : S4096x4096.Idx → EReal := m ((c : Thread nD τ).loc main_arg1)
abbrev bias (c : Dev nD) : S4096.Idx → EReal := m ((c : Thread nD τ).loc main_arg2)

/-- No host operation before the call writes `x` or `w`: the call finds them as launched. -/
theorem xarr_eq (c : Dev nD) : xarr m c = xin m c := V_main_arg0 m c
theorem warr_eq (c : Dev nD) : warr m c = win m c := V_main_arg1 m c

/-- The result: `dense` of the three arguments as launched. -/
abbrev result (c : Dev nD) : S8192x4096.Idx → EReal := dense (xin m c) (win m c) (bias m c)

/-- `dense` at entry `y` of the tile `(rb, cb)`: the four contraction blocks' shares plus the column's bias entry. -/
theorem result_tile (c : Dev nD) (rb cb : ℕ) (y : S1024x1024.Idx) :
    result m c (ix2 (at8 rb (y 0)) (at4 cb (y 1)))
      = (∑ kb ∈ Finset.range 4, share m c rb cb y kb) + bias m c (ix1 (at4 cb (y 1))) := by
  show (∑ k : Fin 4096, xin m c (ix2 (at8 rb (y 0)) k) * bin (win m c (ix2 k (at4 cb (y 1)))))
      + bias m c (ix1 (at4 cb (y 1))) = _
  rw [sum_blk4, Finset.sum_range]
  refine congrArg (· + bias m c (ix1 (at4 cb (y 1)))) (Finset.sum_congr rfl fun kb _ => ?_)
  unfold share
  refine Finset.sum_congr rfl fun k _ => ?_
  rw [at4_eq_blk4, xarr_eq, warr_eq]

/-- What a tile's last point writes back is that tile of `dense`. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  obtain ⟨-, -, -, -, -, -, e0, e1⟩ := idx_facts t
  have hN := lt_N t
  rw [Value.flushed3 m c t]
  funext j
  rw [View.read_apply]
  show (outsAt0 m c t.val t.isLt).1 ((cfg0.win 3).xinj (grid0.coords t) j) = result m c (((cfg0.win 3).blk t).view.emb j)
  refine (output_apply m c t h1 _).trans ?_
  refine (result_tile m c (t.val / 16) (t.val / 4 % 4) ((cfg0.win 3).xinj (grid0.coords t) j)).symm.trans ?_
  refine congrArg (result m c) (funext fun a => Fin.ext ?_)
  match a with
  | ⟨0, _⟩ => show t.val / 16 % 8 * 1024 + (j 0).val = win0_3.index t (0 : Fin 2) * 1024 + 1 * (j 0).val; rw [e0]; omega
  | ⟨1, _⟩ => show t.val / 4 % 4 % 4 * 1024 + (j 1).val = win0_3.index t (1 : Fin 2) * 1024 + 1 * (j 1).val; rw [e1]; omega

/-- An entry of the array lies in point `t`'s tile iff each coordinate lies in the tile's range on its axis. -/
theorem mem_tile (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every entry of the array lies in the tile some write-back point writes. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hlt : (i 0).val / 1024 * 16 + (i 1).val / 1024 * 4 + 3 < cfg0.N := lt_of_lt_of_eq (by omega) N_0.symm
  obtain ⟨-, -, -, -, -, -, e0, e1⟩ := idx_facts ⟨(i 0).val / 1024 * 16 + (i 1).val / 1024 * 4 + 3, hlt⟩
  dsimp only at e0 e1
  refine ⟨⟨(i 0).val / 1024 * 16 + (i 1).val / 1024 * 4 + 3, hlt⟩, (flush0_3 _).mpr (by dsimp only; omega), ?_⟩
  rw [mem_tile]
  intro a
  match a with
  | ⟨0, _⟩ =>
    show win0_3.index ⟨(i 0).val / 1024 * 16 + (i 1).val / 1024 * 4 + 3, hlt⟩ (0 : Fin 2) * 1024 ≤ (i 0).val
      ∧ (i 0).val < win0_3.index ⟨(i 0).val / 1024 * 16 + (i 1).val / 1024 * 4 + 3, hlt⟩ (0 : Fin 2) * 1024 + 1024
    rw [e0]; omega
  | ⟨1, _⟩ =>
    show win0_3.index ⟨(i 0).val / 1024 * 16 + (i 1).val / 1024 * 4 + 3, hlt⟩ (1 : Fin 2) * 1024 ≤ (i 1).val
      ∧ (i 1).val < win0_3.index ⟨(i 0).val / 1024 * 16 + (i 1).val / 1024 * 4 + 3, hlt⟩ (1 : Fin 2) * 1024 + 1024
    rw [e1]; omega

/-- After the run the output array holds `dense` of the arguments. -/
theorem final (c : Dev nD) : (dats m 0 c).arrAt 3 cfg0.N = result m c :=
  (dats m 0 c).arrAt_eq_of_cover 3 (result m c) (flushed_eq m c) cover

/-- The run: every weakly fair execution ends with the output array at `dense` of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  A dense layer with binarized weights: `y = x · sign(w) + b` for `x` of 8192 × 4096, `w` of 4096 × 4096 and `b` of 4096,
  where `sign` is `+1` on `w ≥ 0` and `−1` elsewhere.

  The kernel tiles the output into 8 × 4 tiles of 1024 × 1024 and walks, inside each tile, the four blocks of 1024 of the
  contraction axis: it resets a scratch tile at the first block, adds at every block the product of the `x` tile and the
  binarized weight tile, and at the last block stores the scratch plus the bias row. The reference binarizes all of `w`,
  takes one product over the whole contraction axis and adds the bias.

  Over the extended reals both are the same function `dense` of the three arrays (Proof/Dense.lean): narrowing to
  bf16 is the identity there, the product into a zero accumulator is a plain sum, and a sum over 4096 entries is the
  sum of the four blocks' sums — addition is commutative and associative, so the inputs' finiteness is never used.
  The reference's side is Proof/RefDense.lean; the kernel's is Proof/Pieces.lean (what each case of the body leaves),
  Proof/Payload.lean (the stores entry by entry), Proof/Tiles.lean (the scratch after each grid point, by induction)
  and Proof/Whole.lean (the tiles cover the array). The three programs' runs are the generated modules'.
  The idealization rewrote nothing, so `preserves` has nothing to state.
-/
import proofs.«149915_j84421877170698_1_alg».proof.Defs
import proofs.«149915_j84421877170698_1_alg».proof.Proof.Gen.Kernel
import proofs.«149915_j84421877170698_1_alg».proof.Proof.Gen.Kernel.Skeleton
import proofs.«149915_j84421877170698_1_alg».proof.Proof.Gen.Kernel.Launch
import proofs.«149915_j84421877170698_1_alg».proof.Proof.Gen.Kernel.Points
import proofs.«149915_j84421877170698_1_alg».proof.Proof.Gen.Kernel.Frame
import proofs.«149915_j84421877170698_1_alg».proof.Proof.Gen.KernelIdeal
import proofs.«149915_j84421877170698_1_alg».proof.Proof.Gen.KernelIdeal.Skeleton
import proofs.«149915_j84421877170698_1_alg».proof.Proof.Gen.KernelIdeal.Launch
import proofs.«149915_j84421877170698_1_alg».proof.Proof.Gen.KernelIdeal.Points
import proofs.«149915_j84421877170698_1_alg».proof.Proof.Gen.KernelIdeal.Frame
import proofs.«149915_j84421877170698_1_alg».proof.Proof.Gen.ReferenceIdeal
import proofs.«149915_j84421877170698_1_alg».proof.Proof.Gen.Pre_finite_inputs
import proofs.«149915_j84421877170698_1_alg».proof.Proof.Gen.KernelIdeal.Value
import proofs.«149915_j84421877170698_1_alg».proof.Proof.Gen.ReferenceIdeal.Run
import proofs.«149915_j84421877170698_1_alg».proof.Proof.Gen.ReferenceIdeal.Read
import proofs.«149915_j84421877170698_1_alg».proof.Proof.RefDense
import proofs.«149915_j84421877170698_1_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end at `dense` of arguments that agree: the kernel's output array by the tiles' cover, the reference's
    last stage entry by entry. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq_dense,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
